-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S65536 : Shape := ⟨1, ![65536]⟩
abbrev S4096 : Shape := ⟨1, ![4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S65536 : S_.BroadcastsInDim S65536 (![] : Fin 0 → Fin S65536.rank)
  reducesTo_S65536_S_d0 : S65536.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S65536 .f32) (main_arg2 : FVec F S4096 .f32) (main_arg3 : IVec S4096x4096 32) (main_arg4 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S65536 : Shape := ⟨1, ![65536]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1x4096 : Shape := ⟨2, ![1, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 27
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S65536, .f32⟩
  | .hbm, ⟨2, _⟩ => ⟨S4096, .f32⟩
  | .hbm, ⟨3, _⟩ => ⟨S4096x4096, .i32⟩
  | .hbm, ⟨4, _⟩ => ⟨S4096x4096, .i32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .i32⟩
  | .hbm, ⟨13, _⟩ => ⟨S4096x4096, .i32⟩
  | .hbm, ⟨14, _⟩ => ⟨S4096x4096, .i1⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S4096x4096x1, .i32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S8192x4096, .bf16⟩
  | .hbm, ⟨24, _⟩ => ⟨S4096x4096, .bf16⟩
  | .hbm, ⟨25, _⟩ => ⟨S1x4096, .f32⟩
  | .hbm, ⟨26, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S65536_S4096x4096x1_S4096x4096_n_0_n_n_0_2_1_wf : GatherDims.WF S65536 S4096x4096x1 S4096x4096 [] [0] [] [0] [] 2 ![1]
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S65536_S4096x4096x1_S4096x4096_n_0_n_n_0_2_1 : GatherDims S65536 S4096x4096x1 S4096x4096 where
  offsetDims := []
  collapsedSliceDims := [0]
  operandBatchingDims := []
  startIndicesBatchingDims := []
  startIndexMap := [0]
  indexVectorDim := 2
  sliceSizes := ![1]
  wf := gather_S65536_S4096x4096x1_S4096x4096_n_0_n_n_0_2_1_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v14) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S65536 : Shape := ⟨1, ![65536]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1x4096 : Shape := ⟨2, ![1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S65536, .f32⟩
  | .hbm, ⟨2, _⟩ => ⟨S4096, .f32⟩
  | .hbm, ⟨3, _⟩ => ⟨S4096x4096, .i32⟩
  | .hbm, ⟨4, _⟩ => ⟨S4096x4096, .i32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .i32⟩
  | .hbm, ⟨14, _⟩ => ⟨S4096x4096, .i32⟩
  | .hbm, ⟨15, _⟩ => ⟨S4096x4096, .i1⟩
  | .hbm, ⟨16, _⟩ => ⟨S_, .i32⟩
  | .hbm, ⟨17, _⟩ => ⟨S4096x4096, .i32⟩
  | .hbm, ⟨18, _⟩ => ⟨S4096x4096, .i32⟩
  | .hbm, ⟨19, _⟩ => ⟨S4096x4096, .i32⟩
  | .hbm, ⟨20, _⟩ => ⟨S4096x4096x1, .i32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S65536_S4096x4096x1_S4096x4096_n_0_n_n_0_2_1_wf : GatherDims.WF S65536 S4096x4096x1 S4096x4096 [] [0] [] [0] [] 2 ![1]
  dot_S8192x4096_S4096x4096_S8192x4096_1_0_0_1_n_n_wf : DotDims.WF S8192x4096 S4096x4096 S8192x4096 [1] [0] [0] [1] [] []

variable [Facts₀]

def gather_S65536_S4096x4096x1_S4096x4096_n_0_n_n_0_2_1 : GatherDims S65536 S4096x4096x1 S4096x4096 where
  offsetDims := []
  collapsedSliceDims := [0]
  operandBatchingDims := []
  startIndicesBatchingDims := []
  startIndexMap := [0]
  indexVectorDim := 2
  sliceSizes := ![1]
  wf := gather_S65536_S4096x4096x1_S4096x4096_n_0_n_n_0_2_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one grid point leaves behind, as plain terms of the blocks it loaded.
  The grid is 8 × 4 × 2 (row block, column block, contraction half). At the first contraction half the body zeroes the
  f32 accumulator and adds the half's product into it; at the second it adds the other half's product into what the point
  before left and stores accumulator + bias into the output block. Read back through the whole staging buffers:
    first half  : accumulator = addf (zeros) (x-block · w-block)                      — `k0_pay2 k0_pay1 x0 x1`
    second half : output block = addf (addf acc (x-block · w-block)) (bias row spread) — `k0_pay3 (k0_pay2 acc x0 x1) x2`
  for every float instance.
-/
import proofs.«121363_j15513421873630_1_alg».proof.Proof.Gen.KernelIdeal.Value
import Idealize.ShloMosaic.Lib.Pipeline.Value
import Idealize.ShloMosaic.Lib.Tactic

set_option maxRecDepth 16384

noncomputable section

namespace Cert.KernelIdeal.Block

open Cert.KernelIdeal Cert.KernelIdeal.Gen Idealize.ShloMosaic Idealize.ShloMosaic.TcCoe Idealize.ShloMosaic.Tactic Idealize.SL.Sem

variable {F : FTy → Type} [FloatOps F]

/-- The zero offsets of a whole-buffer load or store. -/
theorem hz : (![0, 0] : Fin 2 → Nat) = fun _ => 0 := funext fun a => by fin_cases a <;> rfl

/-- After a first-half point the accumulator holds zero plus the half's product: the reset store is overwritten by the
    update, whose own read of the accumulator sees the reset. -/
theorem acc_first (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz, View.ld_unit_zero (S := S2048x1024) hz]

/-- After a second-half point the output block holds (what the point before left + the half's product) + bias: the
    epilogue reads the accumulator back after the update's store. -/
theorem out_second (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (x2 : Vec F S1x1024 .f32) (xs0 : Vec F S1024x1024 .f32) :
    out0_B_3 c i arg3 harg3 arg4 harg4 arg5 harg5 arg6 harg6 arg7 harg7 hc0 hc1 x0 x1 x2 xs0 = k0_pay3 (k0_pay2 xs0 x0 x1) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero (S := S1024x1024) hz, View.readCov_unit_zero (S := S1024x1024) _ hz]
  simp only [View.readAt_eq_ld, harg3.read_unread, harg4.read_unread, harg5.read_unread, harg7.read_unread,
    View.ld_unit_zero (S := S1024x2048) hz, View.ld_unit_zero (S := S2048x1024) hz, View.ld_unit_zero (S := S1x1024) hz,
    View.ld_unit_zero (S := S1024x1024) hz]

end Cert.KernelIdeal.Block

end
-- ==== Proof.Payload.lean ====
/-
  The body's arithmetic at one element of a block, on the extended reals.
  With `acc` what the accumulator held, `a` a [1024, 2048] block of x and `b` a [2048, 1024] block of the expanded,
  transposed weights, the update leaves at (p, q)
      acc (p, q) + Σ_{k < 2048} a (p, k) · b (k, q)
  (the matrix unit into a zero accumulator is the exact sum over the contraction index; the casts to the same shape are
  the identity), the reset leaves 0, and the epilogue adds the bias row's entry of column q.
-/
import proofs.«121363_j15513421873630_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The body's dot: [1024, 2048] × [2048, 1024], contracting axis 1 of the left with axis 0 of the right. -/
abbrev mm := dot_S1024x2048_S2048x1024_S1024x1024_1_0_0_1_n_n

theorem mm_lhs_0 (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem mm_lhs_1 (i : S1024x1024.Idx) (q : dot_S1024x2048_S2048x1024_S1024x1024_1_0_0_1_n_n.contr.Idx) :
    (dot_S1024x2048_S2048x1024_S1024x1024_1_0_0_1_n_n.lhsIdx i q 1).val = (q ⟨0, by decide⟩).val :=
  dot_S1024x2048_S2048x1024_S1024x1024_1_0_0_1_n_n.lhsIdx_val_of_single rfl i q
theorem mm_rhs_0 (i : S1024x1024.Idx) (q : dot_S1024x2048_S2048x1024_S1024x1024_1_0_0_1_n_n.contr.Idx) :
    (dot_S1024x2048_S2048x1024_S1024x1024_1_0_0_1_n_n.rhsIdx i q 0).val = (q ⟨0, by decide⟩).val :=
  dot_S1024x2048_S2048x1024_S1024x1024_1_0_0_1_n_n.rhsIdx_val_of_single rfl i q
theorem mm_rhs_1 (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The matrix unit into the zero accumulator, at (p, q): the sum over the 2048 contraction indices of the products. -/
theorem matmul_zero_apply (a : FVec Ideal S1024x2048 .bf16) (b : FVec Ideal S2048x1024 .bf16) (p q : Fin 1024) :
    matmul (F := Ideal) dot_S1024x2048_S2048x1024_S1024x1024_1_0_0_1_n_n none a b (constant S1024x1024 .f32 0x00000000#32) (ix2 p q)
      = ∑ k : Fin 2048, a (ix2 p k) * b (ix2 k q) := by
  simp only [matmul]
  rw [Ideal.matmul_constant_zero_apply, ← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  have el : dot_S1024x2048_S2048x1024_S1024x1024_1_0_0_1_n_n.lhsIdx (ix2 p q) ((contrEquiv1 dot_S1024x2048_S2048x1024_S1024x1024_1_0_0_1_n_n 2048 rfl rfl).symm k) = ix2 p k := funext fun x => Fin.ext (by
    match x with
    | ⟨0, _⟩ => exact mm_lhs_0 _ _
    | ⟨1, _⟩ => exact (mm_lhs_1 _ _).trans hk)
  have er : dot_S1024x2048_S2048x1024_S1024x1024_1_0_0_1_n_n.rhsIdx (ix2 p q) ((contrEquiv1 dot_S1024x2048_S2048x1024_S1024x1024_1_0_0_1_n_n 2048 rfl rfl).symm k) = ix2 k q := funext fun x => Fin.ext (by
    match x with
    | ⟨0, _⟩ => exact (mm_rhs_0 _ _).trans hk
    | ⟨1, _⟩ => exact mm_rhs_1 _ _)
  rw [el, er]

/-- The reset: zero everywhere. -/
theorem reset_apply (j : S1024x1024.Idx) : k0_pay1 (F := Ideal) j = 0 := by
  unfold k0_pay1
  rw [shapeCast_self]
  exact Ideal.ofBits_zero_f32

/-- The update at (p, q): what the accumulator held plus the half's sum of products. -/
theorem update_apply (acc : FVec Ideal S1024x1024 .f32) (a : FVec Ideal S1024x2048 .bf16) (b : FVec Ideal S2048x1024 .bf16) (p q : Fin 1024) :
    k0_pay2 (F := Ideal) acc a b (ix2 p q) = acc (ix2 p q) + ∑ k : Fin 2048, a (ix2 p k) * b (ix2 k q) := by
  unfold k0_pay2
  simp only [shapeCast_self]
  rw [addf_apply, matmul_zero_apply]

/-- The epilogue at (p, q): the accumulator plus the bias row's entry of column q. -/
theorem epilogue_apply (acc : FVec Ideal S1024x1024 .f32) (bias : FVec Ideal S1x1024 .f32) (p q : Fin 1024) :
    k0_pay3 (F := Ideal) acc bias (ix2 p q) = acc (ix2 p q) + bias (ix2 (0 : Fin 1) q) := by
  unfold k0_pay3
  simp only [shapeCast_self]
  rw [addf_apply]
  congr 1
  exact broadcastTo_apply bias broadcasts_S1x1024_S1024x1024 (ix2 p q) (ix2 (0 : Fin 1) q) (fun x => match x with
    | ⟨0, _⟩ => by show 0 = if (1 : Nat) = 1 then 0 else _; rw [if_pos rfl]
    | ⟨1, _⟩ => by show q.val = if (1024 : Nat) = 1 then 0 else q.val; rw [if_neg (by decide)])

/-- One output block's element: both halves accumulated from zero, plus bias. -/
theorem block_apply (a0 a1 : FVec Ideal S1024x2048 .bf16) (b0 b1 : FVec Ideal S2048x1024 .bf16) (bias : FVec Ideal S1x1024 .f32) (p q : Fin 1024) :
    k0_pay3 (F := Ideal) (k0_pay2 (F := Ideal) (k0_pay2 (F := Ideal) (k0_pay1 (F := Ideal)) a0 b0) a1 b1) bias (ix2 p q)
      = ((0 + ∑ k : Fin 2048, a0 (ix2 p k) * b0 (ix2 k q)) + ∑ k : Fin 2048, a1 (ix2 p k) * b1 (ix2 k q)) + bias (ix2 (0 : Fin 1) q) := by
  rw [epilogue_apply, update_apply, update_apply, reset_apply]

end Cert.KernelIdeal.Block

end
-- ==== Proof.Blocks.lean ====
/-
  The windows' blocks, read off the arrays the region finds.
  Point `t` of the 8 × 4 × 2 grid is (row block i, column block j, contraction half h) with t = (4·i + j)·2 + h, so
  i = t / 8, j = t / 2 % 4, h = t % 2. At that point
    the x window's block       is rows 1024·i …, columns 2048·h … of the [8192, 4096] array;
    the weights window's block is rows 2048·h …, columns 1024·j … of the [4096, 4096] array;
    the bias window's block    is columns 1024·j … of the one row;
    the output window's block  is rows 1024·i …, columns 1024·j … of the [8192, 4096] result.
  A block's coordinate on an axis is always (block index) × (block size) + (coordinate inside the block).
-/
import proofs.«121363_j15513421873630_1_alg».proof.Proof.Gen.KernelIdeal.Frame
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps at every one of the 64 points, in closed form. -/
theorem idx_facts : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-- The three input blocks at a point, at their literal types. -/
abbrev xblk (c : Dev nD) (t : Fin cfg0.N) : Vec F S1024x2048 .bf16 := iblk m c 0 t
abbrev wblk (c : Dev nD) (t : Fin cfg0.N) : Vec F S2048x1024 .bf16 := iblk m c 1 t
abbrev bblk (c : Dev nD) (t : Fin cfg0.N) : Vec F S1x1024 .f32 := iblk m c 2 t

/-- The three staged arrays at region entry, at their literal types. -/
abbrev xarr (c : Dev nD) : Vec F S8192x4096 .bf16 := V m c main_v14
abbrev warr (c : Dev nD) : Vec F S4096x4096 .bf16 := V m c main_v15
abbrev barr (c : Dev nD) : Vec F S1x4096 .f32 := V m c main_v16

/-- The x block at (p, k) is x at (1024·i + p, 2048·h + k). -/
theorem xblk_apply (c : Dev nD) (t : Fin cfg0.N) (p : Fin 1024) (k : Fin 2048) (r : Fin 8192) (kk : Fin 4096)
    (hr : r.val = 1024 * (t.val / 8) + p.val) (hk : kk.val = 2048 * (t.val % 2) + k.val) :
    xblk m c t (ix2 p k) = xarr m c (ix2 r kk) := by
  obtain ⟨e0, e1, -⟩ := idx_facts t
  show ((cfg0.win 0).blk t).view.read (Elt F) (V m c (Pipeline.arrRef spec0 0)) (ix2 p k) = _
  rw [View.read_apply]
  show V m c main_v14 _ = V m c main_v14 _
  congr 1
  funext a
  apply Fin.ext
  match a with
  | ⟨0, _⟩ => show win0_0.index t (0 : Fin 2) * 1024 + 1 * p.val = r.val; omega
  | ⟨1, _⟩ => show win0_0.index t (1 : Fin 2) * 2048 + 1 * k.val = kk.val; omega

/-- The weights block at (k, q) is the weights array at (2048·h + k, 1024·j + q). -/
theorem wblk_apply (c : Dev nD) (t : Fin cfg0.N) (k : Fin 2048) (q : Fin 1024) (kk : Fin 4096) (cc : Fin 4096)
    (hk : kk.val = 2048 * (t.val % 2) + k.val) (hc : cc.val = 1024 * (t.val / 2 % 4) + q.val) :
    wblk m c t (ix2 k q) = warr m c (ix2 kk cc) := by
  obtain ⟨-, -, e0, e1, -⟩ := idx_facts t
  show ((cfg0.win 1).blk t).view.read (Elt F) (V m c (Pipeline.arrRef spec0 1)) (ix2 k q) = _
  rw [View.read_apply]
  show V m c main_v15 _ = V m c main_v15 _
  congr 1
  funext a
  apply Fin.ext
  match a with
  | ⟨0, _⟩ => show win0_1.index t (0 : Fin 2) * 2048 + 1 * k.val = kk.val; omega
  | ⟨1, _⟩ => show win0_1.index t (1 : Fin 2) * 1024 + 1 * q.val = cc.val; omega

/-- The bias block at (0, q) is the bias row at (0, 1024·j + q). -/
theorem bblk_apply (c : Dev nD) (t : Fin cfg0.N) (q : Fin 1024) (cc : Fin 4096)
    (hc : cc.val = 1024 * (t.val / 2 % 4) + q.val) :
    bblk m c t (ix2 (0 : Fin 1) q) = barr m c (ix2 (0 : Fin 1) cc) := by
  obtain ⟨-, -, -, -, e0, e1, -⟩ := idx_facts t
  show ((cfg0.win 2).blk t).view.read (Elt F) (V m c (Pipeline.arrRef spec0 2)) (ix2 (0 : Fin 1) q) = _
  rw [View.read_apply]
  show V m c main_v16 _ = V m c main_v16 _
  congr 1
  funext a
  apply Fin.ext
  match a with
  | ⟨0, _⟩ => show win0_2.index t (0 : Fin 2) * 1 + 1 * 0 = 0; omega
  | ⟨1, _⟩ => show win0_2.index t (1 : Fin 2) * 1024 + 1 * q.val = cc.val; omega

end Cert.KernelIdeal.Block

end
-- ==== Proof.HostSide.lean ====
/-
  What the pallas_call finds in the three arrays it stages, after the plain-jax prologue of @main:
    window 0 : x narrowed to bf16 (the identity on extended reals);
    window 1 : the expanded weight matrix, transposed, narrowed to bf16 — `w[o, i] = (1 − 2·sign_bits[o, i]) · Wc[h[o, i]]`
               with a negative hash index wrapped by 65536 and the gather clamped; its transpose is `wT` below, kept as
               ONE term of the three arguments, never opened: the reference builds the very same term;
    window 2 : the bias as a [1, 4096] row.
-/
import proofs.«121363_j15513421873630_1_alg».proof.Proof.Gen.KernelIdeal.Frame
import Idealize.ShloMosaic.Lib.StableHlo.Run
import Idealize.ShloMosaic.Lib.Pipeline.Value

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- The expanded weights, transposed: `wT[i, o] = (1 − 2·float(sign_bits[o, i])) · Wc[clamp (wrap h[o, i])]`, as @main's
    operations spell it (f32, before the narrowing). -/
def wT (wc : FVec F S65536 .f32) (h sgn : IVec S4096x4096 32) : FVec F S4096x4096 .f32 :=
  transpose S4096x4096 [1, 0]
    (mulf
      (subf (broadcastInDim S4096x4096 ![] bcast_S_S4096x4096 (constant (F := F) S_ .f32 0x3F800000#32))
        (mulf (broadcastInDim S4096x4096 ![] bcast_S_S4096x4096 (constant (F := F) S_ .f32 0x40000000#32))
          (sitofp (F := F) .f32 sgn)))
      (Host.gather gather_S65536_S4096x4096x1_S4096x4096_n_0_n_n_0_2_1 wc
        (broadcastInDim S4096x4096x1 ![0, 1] bcast_S4096x4096_S4096x4096x1_0_1
          (select
            (cmpi .slt h (broadcastInDim S4096x4096 ![] bcast_S_S4096x4096 (constantI S_ 32 0#32)))
            (addi h (broadcastInDim S4096x4096 ![] bcast_S_S4096x4096 (constantI S_ 32 65536#32)))
            h))))
    transposes_S4096x4096_S4096x4096_1_0

variable (m : (ℓ : Loc nD τ sig) → Buf (Elt F) ℓ)

set_option maxHeartbeats 2000000 in
/-- Window 0's array: x, narrowed. -/
theorem V_x (c : Dev nD) :
    (V m c main_v14 : S8192x4096.Idx → Elt F .bf16) = truncf .bf16 (m ((c : Thread nD τ).loc main_arg0)) bitsLt_bf16_f32 := by
  dsimp only [Gen.V, Gen.hostOps0]; after_results

set_option maxHeartbeats 2000000 in
/-- Window 1's array: the transposed expanded weights, narrowed. -/
theorem V_w (c : Dev nD) :
    (V m c main_v15 : S4096x4096.Idx → Elt F .bf16)
      = truncf .bf16 (wT (F := F) (m ((c : Thread nD τ).loc main_arg1)) (m ((c : Thread nD τ).loc main_arg3)) (m ((c : Thread nD τ).loc main_arg4))) bitsLt_bf16_f32 := by
  dsimp only [Gen.V, Gen.hostOps0]
  generalize hR : truncf .bf16 (wT (F := F) (m ((c : Thread nD τ).loc main_arg1)) (m ((c : Thread nD τ).loc main_arg3)) (m ((c : Thread nD τ).loc main_arg4))) bitsLt_bf16_f32 = R
  after_results
  subst hR
  unfold wT
  rfl

set_option maxHeartbeats 2000000 in
/-- Window 2's array: the bias, reshaped to one row. -/
theorem V_bias (c : Dev nD) :
    (V m c main_v16 : S1x4096.Idx → Elt F .f32) = shapeCast S1x4096 (m ((c : Thread nD τ).loc main_arg2)) shapeCasts_S4096_S1x4096 := by
  dsimp only [Gen.V, Gen.hostOps0]; after_results
  rfl

end Cert.KernelIdeal.HostSide

end
-- ==== Proof.SumSplit.lean ====
/-
  The one law that joins the two sides. The kernel accumulates the contraction over its 4096 terms in two halves of 2048,
  starting from zero: `(0 + Σ_{k<2048} f k) + Σ_{k<2048} f (2048 + k)`; the reference takes the sum over all 4096 at once.
  On the extended reals addition is commutative and associative and `0` is neutral (only cancellation and
  distributivity fail at the infinities), so the two are equal for EVERY family `f`, finite or not.
-/
import Mathlib.Data.EReal.Basic
import Mathlib.Algebra.BigOperators.Fin

namespace Cert.HashedMatmul

open scoped BigOperators

/-- A sum over `Fin 4096` is the sum of its lower half and its upper half. -/
theorem sum_halves {M : Type*} [AddCommMonoid M] (f : Fin 4096 → M) :
    ∑ k : Fin 4096, f k
      = (∑ k : Fin 2048, f ⟨k.val, by have := k.isLt; omega⟩) + ∑ k : Fin 2048, f ⟨2048 + k.val, by have := k.isLt; omega⟩ := by
  have h := Fin.sum_univ_add (a := 2048) (b := 2048) (fun i : Fin (2048 + 2048) => f (Fin.cast (by norm_num) i))
  have e : ∑ k : Fin 4096, f k = ∑ i : Fin (2048 + 2048), f (Fin.cast (by norm_num) i) :=
    (Equiv.sum_comp (finCongr (by norm_num : 2048 + 2048 = 4096)) f).symm
  rw [e, h]
  rfl

/-- The kernel's accumulation order — zero, plus the lower half, plus the upper half — is the whole sum. -/
theorem acc_halves (f : Fin 4096 → EReal) :
    (0 + ∑ k : Fin 2048, f ⟨k.val, by have := k.isLt; omega⟩) + ∑ k : Fin 2048, f ⟨2048 + k.val, by have := k.isLt; omega⟩
      = ∑ k : Fin 4096, f k := by
  rw [zero_add, sum_halves]

end Cert.HashedMatmul
-- ==== Proof.Spec.lean ====
/-
  The function both programs compute: a dense layer `y = x · wT + bias` over the extended reals,
      y[r, c] = Σ_{k < 4096} x[r, k] · wT[k, c] + bias[c],     r < 8192, c < 4096,
  for any three arrays (the weights `wT` are the expanded hashed table, built the same way by both programs, and enter
  here as an array like any other). The kernel reaches it in two halves of the contraction accumulated from zero.
-/
import Idealize.ShloMosaic.PureOps.Ideal
import Idealize.ShloMosaic.Lib.ValueIdx
import proofs.«121363_j15513421873630_1_alg».proof.Proof.SumSplit

noncomputable section

namespace Cert.HashedMatmul

open Idealize.ShloMosaic Idealize.ShloMosaic.ValueIdx
open scoped BigOperators

/-- `y = x · wT + bias`, index by index. -/
def linear (x : (⟨2, ![8192, 4096]⟩ : Shape).Idx → EReal) (wT : (⟨2, ![4096, 4096]⟩ : Shape).Idx → EReal)
    (bias : (⟨1, ![4096]⟩ : Shape).Idx → EReal) : (⟨2, ![8192, 4096]⟩ : Shape).Idx → EReal :=
  fun j => (∑ k : Fin 4096, x (ix2 ⟨(j 0).val, idx2_lt0 j⟩ k) * wT (ix2 k ⟨(j 1).val, idx2_lt1 j⟩)) + bias (ix1 ⟨(j 1).val, idx2_lt1 j⟩)

/-- At row r, column c. -/
theorem linear_apply (x : (⟨2, ![8192, 4096]⟩ : Shape).Idx → EReal) (wT : (⟨2, ![4096, 4096]⟩ : Shape).Idx → EReal)
    (bias : (⟨1, ![4096]⟩ : Shape).Idx → EReal) (r : Fin 8192) (c : Fin 4096) :
    linear x wT bias (ix2 r c) = (∑ k : Fin 4096, x (ix2 r k) * wT (ix2 k c)) + bias (ix1 c) := rfl

/-- The kernel's form of one entry — zero, plus the products of the lower 2048 contraction indices, plus those of the
    upper 2048, plus the bias entry — is that entry of `linear`. -/
theorem linear_of_halves (x : (⟨2, ![8192, 4096]⟩ : Shape).Idx → EReal) (wT : (⟨2, ![4096, 4096]⟩ : Shape).Idx → EReal)
    (bias : (⟨1, ![4096]⟩ : Shape).Idx → EReal) (r : Fin 8192) (c : Fin 4096) (lo hi : Fin 2048 → EReal) (b : EReal)
    (hlo : ∀ k : Fin 2048, lo k = x (ix2 r ⟨k.val, by have := k.isLt; omega⟩) * wT (ix2 ⟨k.val, by have := k.isLt; omega⟩ c))
    (hhi : ∀ k : Fin 2048, hi k = x (ix2 r ⟨2048 + k.val, by have := k.isLt; omega⟩) * wT (ix2 ⟨2048 + k.val, by have := k.isLt; omega⟩ c))
    (hb : b = bias (ix1 c)) :
    ((0 + ∑ k : Fin 2048, lo k) + ∑ k : Fin 2048, hi k) + b = linear x wT bias (ix2 r c) := by
  rw [linear_apply, ← acc_halves (fun k => x (ix2 r k) * wT (ix2 k c)), hb]
  simp only [hlo, hhi]

end Cert.HashedMatmul

end
-- ==== Proof.KernelValue.lean ====
/-
  The kernel's result array as one function of its arguments, on the extended reals.
  Output block (i, j) is written back once, at the point (i, j, second half). There the body has stored
      ((0 + x[i-rows, lower half] · wT[lower half, j-cols]) + x[i-rows, upper half] · wT[upper half, j-cols]) + bias[j-cols]:
  the accumulator the point before (i, j, first half) left, plus this point's product, plus the bias. Read through the
  windows' blocks and the prologue's arrays, entry (p, q) of that block is entry (1024·i + p, 1024·j + q) of
  `linear x wT bias`; the 32 written blocks tile the [8192, 4096] result, so the array ends at `linear x wT bias`.
-/
import proofs.«121363_j15513421873630_1_alg».proof.Proof.Gen.KernelIdeal.Value
import proofs.«121363_j15513421873630_1_alg».proof.Proof.Pieces
import proofs.«121363_j15513421873630_1_alg».proof.Proof.Payload
import proofs.«121363_j15513421873630_1_alg».proof.Proof.Blocks
import proofs.«121363_j15513421873630_1_alg».proof.Proof.HostSide
import proofs.«121363_j15513421873630_1_alg».proof.Proof.Spec
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The staged arrays, entry by entry -/

/-- The x array the region finds is x (narrowing is the identity on extended reals). -/
theorem xarr_apply (c : Dev nD) (i : S8192x4096.Idx) : Block.xarr m c i = m ((c : Thread nD τ).loc main_arg0) i := by
  show (V m c main_v14 : S8192x4096.Idx → Elt Ideal .bf16) i = _
  rw [HostSide.V_x m c]
  rfl

/-- The weights array the region finds is the transposed expanded table. -/
theorem warr_apply (c : Dev nD) (i : S4096x4096.Idx) :
    Block.warr m c i = HostSide.wT (F := Ideal) (m ((c : Thread nD τ).loc main_arg1)) (m ((c : Thread nD τ).loc main_arg3)) (m ((c : Thread nD τ).loc main_arg4)) i := by
  show (V m c main_v15 : S4096x4096.Idx → Elt Ideal .bf16) i = _
  rw [HostSide.V_w m c]
  rfl

/-- The bias row the region finds, at column cc, is the bias at cc. -/
theorem barr_apply (c : Dev nD) (cc : Fin 4096) :
    Block.barr m c (ix2 (0 : Fin 1) cc) = m ((c : Thread nD τ).loc main_arg2) (ix1 cc) := by
  show (V m c main_v16 : S1x4096.Idx → Elt Ideal .f32) (ix2 (0 : Fin 1) cc) = _
  rw [HostSide.V_bias m c]
  exact shapeCast_apply _ shapeCasts_S4096_S1x4096 (ix2 (0 : Fin 1) cc) (ix1 cc) (by
    rw [Shape.rowMajor_val_one, Shape.rowMajor_val_two]
    show cc.val = 0 * 4096 + cc.val
    omega)

/-! ## What the two points of an output block leave -/

/-- The point before `t`. -/
abbrev prev (t : Fin cfg0.N) : Fin cfg0.N := ⟨t.val - 1, Nat.lt_of_le_of_lt (Nat.sub_le _ _) t.isLt⟩

/-- After a first-half point the accumulator is zero plus that point's product. -/
theorem acc_at_first (c : Dev nD) (t : Fin cfg0.N) (h0 : t.val % 2 = 0) (h1 : ¬t.val % 2 = 1) :
    (outsAt0 m c t.val t.isLt).2 = k0_pay2 (F := Ideal) (k0_pay1 (F := Ideal)) (Block.xblk m c t) (Block.wblk m c t) := by
  rw [outsAt0_A m c t h0 h1]; dsimp only
  exact Block.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After a second-half point the output block is (what the point before left + this point's product) + bias. -/
theorem out_at_second (c : Dev nD) (t : Fin cfg0.N) (h0 : ¬t.val % 2 = 0) (h1 : t.val % 2 = 1) :
    (outsAt0 m c t.val t.isLt).1
      = k0_pay3 (F := Ideal) (k0_pay2 (F := Ideal) (outsAt0 m c (prev t).val (prev t).isLt).2 (Block.xblk m c t) (Block.wblk m c t)) (Block.bblk m c t) := by
  rw [outsAt0_B m c t h0 h1]; dsimp only
  exact Block.out_second (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- So the block a second-half point writes back is both halves accumulated from zero, plus bias. -/
theorem block_at_second (c : Dev nD) (t : Fin cfg0.N) (h0 : ¬t.val % 2 = 0) (h1 : t.val % 2 = 1) :
    (outsAt0 m c t.val t.isLt).1
      = k0_pay3 (F := Ideal) (k0_pay2 (F := Ideal) (k0_pay2 (F := Ideal) (k0_pay1 (F := Ideal)) (Block.xblk m c (prev t)) (Block.wblk m c (prev t))) (Block.xblk m c t) (Block.wblk m c t)) (Block.bblk m c t) := by
  rw [out_at_second m c t h0 h1, acc_at_first m c (prev t) (by show (t.val - 1) % 2 = 0; omega) (by show ¬(t.val - 1) % 2 = 1; omega)]

/-! ## The result array -/

/-- What the result array ends holding: `x · wT + bias` of the arguments. -/
abbrev out (c : Dev nD) : Buf (Elt Ideal) ((c : Thread nD τ).loc main_v17) :=
  Cert.HashedMatmul.linear (m ((c : Thread nD τ).loc main_arg0))
    (HostSide.wT (F := Ideal) (m ((c : Thread nD τ).loc main_arg1)) (m ((c : Thread nD τ).loc main_arg3)) (m ((c : Thread nD τ).loc main_arg4)))
    (m ((c : Thread nD τ).loc main_arg2))

/-- WHAT A WRITE-BACK WRITES is its block of `out`. -/
theorem flushed_eq (c : Dev nD) (t : Fin cfg0.N) (hf : (cfg0.win 3).flush t = true) :
    (dats m 0 c).flushed 3 t = ((cfg0.win 3).blk t).view.read (Elt Ideal) (out m c) := by
  have h1 : t.val % 2 = 1 := (flush0_3 t).mp hf
  have h0 : ¬t.val % 2 = 0 := by omega
  have hN : t.val < 64 := lt_of_lt_of_eq t.isLt (show cfg0.N = 64 from N_0)
  obtain ⟨-, -, -, -, -, -, e0, e1⟩ := Block.idx_facts t
  rw [Value.flushed3, block_at_second m c t h0 h1]
  funext j
  obtain ⟨p, q, rfl⟩ : ∃ (p q : Fin 1024), j = ix2 p q := ⟨j 0, j 1, eq_ix2 j⟩
  have hp := p.isLt
  have hq := q.isLt
  have hr : 1024 * (t.val / 8) + p.val < 8192 := by omega
  have hc : 1024 * (t.val / 2 % 4) + q.val < 4096 := by omega
  have hemb : ((cfg0.win 3).blk t).view.emb (ix2 p q)
      = ix2 (⟨1024 * (t.val / 8) + p.val, hr⟩ : Fin 8192) (⟨1024 * (t.val / 2 % 4) + q.val, hc⟩ : Fin 4096) := by
    funext a
    apply Fin.ext
    match a with
    | ⟨0, _⟩ => show win0_3.index t (0 : Fin 2) * 1024 + 1 * p.val = 1024 * (t.val / 8) + p.val; omega
    | ⟨1, _⟩ => show win0_3.index t (1 : Fin 2) * 1024 + 1 * q.val = 1024 * (t.val / 2 % 4) + q.val; omega
  rw [View.read_apply]
  refine Eq.trans ?_ (congrArg (out m c) hemb).symm
  refine (Block.block_apply _ _ _ _ _ p q).trans ?_
  refine Cert.HashedMatmul.linear_of_halves _ _ _ _ _ _ _ _ (fun k => ?_) (fun k => ?_) ?_
  · have hk := k.isLt
    rw [Block.xblk_apply m c (prev t) p k ⟨1024 * (t.val / 8) + p.val, hr⟩ ⟨k.val, by omega⟩ (by show 1024 * (t.val / 8) + p.val = 1024 * ((t.val - 1) / 8) + p.val; omega) (by show k.val = 2048 * ((t.val - 1) % 2) + k.val; omega),
      Block.wblk_apply m c (prev t) k q ⟨k.val, by omega⟩ ⟨1024 * (t.val / 2 % 4) + q.val, hc⟩ (by show k.val = 2048 * ((t.val - 1) % 2) + k.val; omega) (by show 1024 * (t.val / 2 % 4) + q.val = 1024 * ((t.val - 1) / 2 % 4) + q.val; omega),
      xarr_apply, warr_apply]
  · have hk := k.isLt
    rw [Block.xblk_apply m c t p k ⟨1024 * (t.val / 8) + p.val, hr⟩ ⟨2048 + k.val, by omega⟩ rfl (by show 2048 + k.val = 2048 * (t.val % 2) + k.val; omega),
      Block.wblk_apply m c t k q ⟨2048 + k.val, by omega⟩ ⟨1024 * (t.val / 2 % 4) + q.val, hc⟩ (by show 2048 + k.val = 2048 * (t.val % 2) + k.val; omega) rfl,
      xarr_apply, warr_apply]
  · rw [Block.bblk_apply m c t q ⟨1024 * (t.val / 2 % 4) + q.val, hc⟩ rfl, barr_apply]

/-- An index of the result is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v17).slice (win0_3.rect t)).set ↔ _
  rw [View.set_slice_whole, Rect.mem_set_unit]
  exact Iff.rfl

/-- Every entry of the result lies in the block of a point that writes back: row block r / 1024, column block c / 1024,
    second half. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  let t : Fin cfg0.N := ⟨8 * ((i 0).val / 1024) + 2 * ((i 1).val / 1024) + 1, by rw [hN]; omega⟩
  have ht : t.val = 8 * ((i 0).val / 1024) + 2 * ((i 1).val / 1024) + 1 := rfl
  obtain ⟨-, -, -, -, -, -, e0, e1⟩ := Block.idx_facts t
  refine ⟨t, (flush0_3 t).mpr (by omega), ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The result array after the run. -/
theorem final (c : Dev nD) : (dats m 0 c).arrAt 3 cfg0.N = out m c :=
  (dats m 0 c).arrAt_eq_of_cover 3 (out m c) (flushed_eq m c) cover

/-- The kernel's run: the result at `x · wT + bias`, the arguments unchanged. -/
theorem run : θ_run defs (onTc (τ := τ) (main (F := Ideal))) ⟨m, fun _ => 0, ρ⟩ fun r => ∀ c : Dev nD,
      r.2.mem ((c : Thread nD τ).loc main_v17) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KValue

end
-- ==== Proof.RefValue.lean ====
/-
  The reference, read as the same function. Its @main multiplies x by the transposed expanded weights with one
  `dot_general` over all 4096 contraction indices and adds the bias spread over the rows: entry (r, c) is
      Σ_{k < 4096} x[r, k] · wT[k, c] + bias[c]
  — `linear x wT bias`. Its weights term is, operation for operation, the one the kernel's prologue builds (the reference
  has one more `convert` f32 → f32, the identity): the same expansion of the hashed table, never opened here.
-/
import proofs.«121363_j15513421873630_1_alg».proof.Proof.Gen.ReferenceIdeal.Read
import proofs.«121363_j15513421873630_1_alg».proof.Proof.HostSide
import proofs.«121363_j15513421873630_1_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The reference's result is `linear` of x, its own weights term, and the bias. -/
theorem result_eq_linear (x0 : (⟨S8192x4096, .f32⟩ : BufTy).Contents (Elt Ideal)) (x1 : (⟨S65536, .f32⟩ : BufTy).Contents (Elt Ideal))
    (x2 : (⟨S4096, .f32⟩ : BufTy).Contents (Elt Ideal)) (x3 x4 : (⟨S4096x4096, .i32⟩ : BufTy).Contents (Elt Ideal)) :
    val_main_v18 (F := Ideal) x0 x1 x2 x3 x4 = Cert.HashedMatmul.linear x0 (val_main_v14 (F := Ideal) x1 x3 x4) x2 := by
  funext i
  obtain ⟨r, c, rfl⟩ : ∃ (r : Fin 8192) (c : Fin 4096), i = ix2 r c := ⟨i 0, i 1, eq_ix2 i⟩
  have el : ∀ k : Fin 4096, lidx_main_v15 (ix2 r c) k = ix2 r k := fun k => funext fun a => Fin.ext (by
    match a with
    | ⟨0, _⟩ => rfl
    | ⟨1, _⟩ => rfl)
  have er : ∀ k : Fin 4096, ridx_main_v15 (ix2 r c) k = ix2 k c := fun k => funext fun a => Fin.ext (by
    match a with
    | ⟨0, _⟩ => rfl
    | ⟨1, _⟩ => rfl)
  have eb : idx_main_v16 (idx_main_v17 (ix2 r c)) = ix1 c := funext fun a => Fin.ext (by
    match a with
    | ⟨0, _⟩ => rfl)
  rw [val_main_v18_apply, val_main_v15_apply, val_main_v17_apply, val_main_v16_apply, Cert.HashedMatmul.linear_apply]
  simp only [el, er, eb]
  rfl

/-- The reference's weights term is the kernel prologue's. -/
theorem weights_eq (x1 : (⟨S65536, .f32⟩ : BufTy).Contents (Elt Ideal)) (x3 x4 : (⟨S4096x4096, .i32⟩ : BufTy).Contents (Elt Ideal)) :
    val_main_v14 (F := Ideal) x1 x3 x4 = Cert.KernelIdeal.HostSide.wT (F := Ideal) x1 x3 x4 := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_c val_main_c_1
    Cert.KernelIdeal.HostSide.wT
  rfl

end Cert.ReferenceIdeal.RefValue

end
-- ==== Proof.lean ====
/-
  A hashed dense layer: `w[o, i] = (1 − 2·sign_bits[o, i]) · Wc[hash_idx[o, i]]` expanded from a 65536-entry table, then
  `y = x · wᵀ + bias` with x of [8192, 4096] and y of [8192, 4096].
  Both programs expand the weights with the same plain operations (the kernel's entry point does so before its
  pallas_call). They differ in the product: the kernel narrows x and wᵀ to bf16 — the identity on extended reals — and
  computes y block by block over an 8 × 4 × 2 grid, the last axis splitting the 4096-long contraction in two halves
  accumulated in an f32 scratch from zero, the bias added at the second half; the reference takes one `dot_general` over
  all 4096 indices and adds the bias. Entry (r, c) is on one side `((0 + Σ_{k<2048} …) + Σ_{2048≤k<4096} …) + bias[c]`, on
  the other `Σ_{k<4096} … + bias[c]`: equal on the extended reals by associativity of addition and `0 + a = a` alone, so
  the finiteness of the inputs is never used.
  The ideal pass rewrote nothing, so `preserves` is trivial. The frames of the two kernel programs are the generated ones;
  the reference's frame is its run with the result dropped.
-/
import proofs.«121363_j15513421873630_1_alg».proof.Defs
import proofs.«121363_j15513421873630_1_alg».proof.Proof.Gen.Kernel
import proofs.«121363_j15513421873630_1_alg».proof.Proof.Gen.Kernel.Skeleton
import proofs.«121363_j15513421873630_1_alg».proof.Proof.Gen.Kernel.Launch
import proofs.«121363_j15513421873630_1_alg».proof.Proof.Gen.Kernel.Points
import proofs.«121363_j15513421873630_1_alg».proof.Proof.Gen.Kernel.Frame
import proofs.«121363_j15513421873630_1_alg».proof.Proof.Gen.KernelIdeal
import proofs.«121363_j15513421873630_1_alg».proof.Proof.Gen.KernelIdeal.Skeleton
import proofs.«121363_j15513421873630_1_alg».proof.Proof.Gen.KernelIdeal.Launch
import proofs.«121363_j15513421873630_1_alg».proof.Proof.Gen.KernelIdeal.Points
import proofs.«121363_j15513421873630_1_alg».proof.Proof.Gen.KernelIdeal.Frame
import proofs.«121363_j15513421873630_1_alg».proof.Proof.Gen.ReferenceIdeal
import proofs.«121363_j15513421873630_1_alg».proof.Proof.Gen.Pre_finite_inputs
import proofs.«121363_j15513421873630_1_alg».proof.Proof.Gen.KernelIdeal.Value
import proofs.«121363_j15513421873630_1_alg».proof.Proof.Gen.ReferenceIdeal.Run
import proofs.«121363_j15513421873630_1_alg».proof.Proof.Gen.ReferenceIdeal.Read
import proofs.«121363_j15513421873630_1_alg».proof.Proof.KernelValue
import proofs.«121363_j15513421873630_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on the five arguments both programs end with the result array at `x · wᵀ + bias` of them:
    the kernel by its blocks (two accumulated halves per block, 32 blocks tiling the result), the reference by its one
    product, and the two weights terms are the same expansion. -/
theorem algebraic : Cert.algebraic_KernelIdeal_ReferenceIdeal := by
  intro m ρ m' ρ' _ hagree
  refine ⟨fun c => Cert.KernelIdeal.KValue.out m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq_linear,
    Cert.ReferenceIdeal.RefValue.weights_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
